-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S50000x128 : Shape := ⟨2, ![50000, 128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S50000x128 : S_.BroadcastsInDim S50000x128 (![] : Fin 0 → Fin S50000x128.rank)
  reducesTo_S50000x128_S_d0_1 : S50000x128.ReducesTo [0, 1] S_

variable [Facts]

def fn_part1 {F : FTy → Type} [FloatOps F] (main_arg5 : FVec F S128 .f32) (main_arg6 : FVec F S50000x128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S50000x128 .f32 := Host.absf main_arg6
  let main_cst_8 : FVec F S_ .f32 := constant S_ .f32 0x7F800000#32
  let main_v25 : FVec F S50000x128 .f32 := broadcastInDim S50000x128 ![] bcast_S_S50000x128 main_cst_8
  let main_v26 : IVec S50000x128 1 := cmpf .olt main_v24 main_v25
  let main_c_9 : IVec S_ 1 := constantI S_ 1 1#1
  let main_v27 : IVec S_ 1 := (fun x v => Host.reduce IntOp.andi x v reducesTo_S50000x128_S_d0_1 h_S_) main_v26 main_c_9
  let main_v28 : IVec S_ 1 := andi main_v23 main_v27
  main_v28

def fn {F : FTy → Type} [FloatOps F] (main_arg0 : FVec F S50000x256 .f32) (main_arg1 : IVec S2x800000 32) (main_arg2 : FVec F S256x128 .f32) (main_arg3 : FVec F S128 .f32) (main_arg4 : FVec F S256x128 .f32) (main_arg5 : FVec F S128 .f32) (main_arg6 : FVec F S50000x128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S50000x128 : Shape := ⟨2, ![50000, 128]⟩
abbrev S1x800000 : Shape := ⟨2, ![1, 800000]⟩
abbrev S800000 : Shape := ⟨1, ![800000]⟩
abbrev S256x256 : Shape := ⟨2, ![256, 256]⟩
abbrev S1000x256 : Shape := ⟨2, ![1000, 256]⟩
abbrev S_ : Shape := ⟨0, ![]⟩
abbrev S50000 : Shape := ⟨1, ![50000]⟩
abbrev S800000x1 : Shape := ⟨2, ![800000, 1]⟩
abbrev S800000x256 : Shape := ⟨2, ![800000, 256]⟩
abbrev S50000x1 : Shape := ⟨2, ![50000, 1]⟩
abbrev S1x128 : Shape := ⟨2, ![1, 128]⟩
abbrev S1000x128 : Shape := ⟨2, ![1000, 128]⟩

abbrev nBuf : Space → Nat
  | .hbm => 71
  | .vmem => 19
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S50000x128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S256x256, .f32⟩
  | .hbm, ⟨12, _⟩ => ⟨S50000x256, .f32⟩
  | .hbm, ⟨13, _⟩ => ⟨S50000x128, .f32⟩
  | .hbm, ⟨14, _⟩ => ⟨S50000x128, .f32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000, .f32⟩
  | .hbm, ⟨43, _⟩ => ⟨S800000, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x256, .f32⟩
  | .hbm, ⟨53, _⟩ => ⟨S800000x1, .f32⟩
  | .hbm, ⟨54, _⟩ => ⟨S800000x256, .f32⟩
  | .hbm, ⟨55, _⟩ => ⟨S800000x256, .f32⟩
  | .hbm, ⟨56, _⟩ => ⟨S_, .f32⟩
  | .hbm, ⟨57, _⟩ => ⟨S50000x256, .f32⟩
  | .hbm, ⟨58, _⟩ => ⟨S800000x1, .i32⟩
  | .hbm, ⟨59, _⟩ => ⟨S50000x256, .f32⟩
  | .hbm, ⟨60, _⟩ => ⟨S50000x128, .f32⟩
  | .hbm, ⟨61, _⟩ => ⟨S50000x128, .f32⟩
  | .hbm, ⟨62, _⟩ => ⟨S50000, .f32⟩
  | .hbm, ⟨63, _⟩ => ⟨S50000x1, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S1x128, .f32⟩
  | .hbm, ⟨69, _⟩ => ⟨S1x128, .f32⟩
  | .hbm, ⟨70, _⟩ => ⟨S50000x128, .f32⟩
  | .local _ .vmem, ⟨0, _⟩ => ⟨S1000x256, .f32⟩
  | .local _ .vmem, ⟨1, _⟩ => ⟨S1000x256, .f32⟩
  | .local _ .vmem, ⟨2, _⟩ => ⟨S256x256, .f32⟩
  | .local _ .vmem, ⟨3, _⟩ => ⟨S1000x256, .f32⟩
  | .local _ .vmem, ⟨4, _⟩ => ⟨S1000x256, .f32⟩
  | .local _ .vmem, ⟨5, _⟩ => ⟨S1000x128, .f32⟩
  | .local _ .vmem, ⟨6, _⟩ => ⟨S1000x128, .f32⟩
  | .local _ .vmem, ⟨7, _⟩ => ⟨S1000x128, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S1000x128, .f32⟩
  | .local _ .vmem, ⟨13, _⟩ => ⟨S1x128, .f32⟩
  | .local _ .vmem, ⟨14, _⟩ => ⟨S1x128, .f32⟩
  | .local _ .vmem, ⟨15, _⟩ => ⟨S1000x128, .f32⟩
  | .local _ .vmem, ⟨16, _⟩ => ⟨S1000x128, .f32⟩
  | .local _ .vmem, ⟨17, _⟩ => ⟨S1000x128, .f32⟩
  | .local _ .vmem, ⟨18, _⟩ => ⟨S1000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg7_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem6_0 : DmaSem sig := 15
abbrev cc1_sem6_1 : DmaSem sig := 16
abbrev cc1_sem7_0 : DmaSem sig := 17
abbrev cc1_sem7_1 : DmaSem sig := 18

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S256x128_S256x128_S256x256_d1 : Shape.Concatenates [S256x128, S256x128] S256x256 1
  inb_S1000x256_S1000x256_0_0 : ∀ a, (![0, 0] : Fin 2 → Nat) a + S1000x256.size a ≤ S1000x256.size a
  h_S1000x256 : 0 < S1000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S50000x256_S50000x128_0_0 : S50000x256.Slices ![0, 0] S50000x128
  slices_S50000x256_S50000x128_0_128 : S50000x256.Slices ![0, 128] S50000x128
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  dot_S1000x256_S256x256_S1000x256_1_0_0_1_n_n_wf : DotDims.WF S1000x256 S256x256 S1000x256 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S50000x256.size a
  hwx0_0 : ∀ i : grid0.Coords, EltTy.bits .f32 = 32 ∨ (Rect.block (s := S50000x256) S1000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S50000x256.size a
  hwx0_2 : ∀ i : grid0.Coords, EltTy.bits .f32 = 32 ∨ (Rect.block (s := S50000x256) S1000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S50000x128.size a
  hwx1_1 : ∀ i : grid1.Coords, EltTy.bits .f32 = 32 ∨ (Rect.block (s := S50000x128) S1000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x128.size a ≤ S50000x128.size a
  hwx1_2 : ∀ i : grid1.Coords, EltTy.bits .f32 = 32 ∨ (Rect.block (s := S50000x128) S1000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x128.size a ≤ S50000x128.size a
  hwx1_3 : ∀ i : grid1.Coords, EltTy.bits .f32 = 32 ∨ (Rect.block (s := S50000x128) S1000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x128.size a ≤ S50000x128.size a
  hwx1_6 : ∀ i : grid1.Coords, EltTy.bits .f32 = 32 ∨ (Rect.block (s := S50000x128) S1000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1000x128.size a ≤ S50000x128.size a
  hwx1_7 : ∀ i : grid1.Coords, EltTy.bits .f32 = 32 ∨ (Rect.block (s := S50000x128) S1000x128.size (cc1_transform_7 i) (hinb1_7 i)).WholeWords (EltTy.packing .f32)

variable [Facts₀]

def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v51) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S1000x128.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v53) S1000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S50000x128 : Shape := ⟨2, ![50000, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩

abbrev nBuf : Space → Nat
  | .hbm => 129
  | .vmem => 0
  | .smem => 0
  | _ => 0

abbrev hbmTy0_0 (i : Nat) : BufTy := match i % 128 with
  | 0 => ⟨S50000x256, .f32⟩
  | 1 => ⟨S2x800000, .i32⟩
  | 2 => ⟨S256x128, .f32⟩
  | 3 => ⟨S128, .f32⟩
  | 4 => ⟨S256x128, .f32⟩
  | 5 => ⟨S128, .f32⟩
  | 6 => ⟨S50000x128, .f32⟩
  | 7 => ⟨S1x800000, .i32⟩
  | 8 => ⟨S800000, .i32⟩
  | 9 => ⟨S1x800000, .i32⟩
  | 10 => ⟨S800000, .i32⟩
  | 11 => ⟨S50000x128, .f32⟩
  | 12 => ⟨S_, .f32⟩
  | 13 => ⟨S800000, .f32⟩
  | 14 => ⟨S_, .f32⟩
  | 15 => ⟨S50000, .f32⟩
  | 16 => ⟨S800000x1, .i32⟩
  | 17 => ⟨S50000, .f32⟩
  | 18 => ⟨S_, .f32⟩
  | 19 => ⟨S50000, .f32⟩
  | 20 => ⟨S50000, .f32⟩
  | 21 => ⟨S50000, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000, .f32⟩
  | 40 => ⟨S800000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x128, .f32⟩
  | 50 => ⟨S800000x1, .f32⟩
  | 51 => ⟨S800000x128, .f32⟩
  | 52 => ⟨S800000x128, .f32⟩
  | 53 => ⟨S_, .f32⟩
  | 54 => ⟨S50000x128, .f32⟩
  | 55 => ⟨S800000x1, .i32⟩
  | 56 => ⟨S50000x128, .f32⟩
  | 57 => ⟨S50000, .f32⟩
  | 58 => ⟨S50000x1, .f32⟩
  | 59 => ⟨S50000x128, .f32⟩
  | 60 => ⟨S50000x128, .f32⟩
  | 61 => ⟨S50000x128, .f32⟩
  | 62 => ⟨S1x128, .f32⟩
  | 63 => ⟨S50000x128, .f32⟩
  | 64 => ⟨S50000x128, .f32⟩
  | 65 => ⟨S1x800000, .i32⟩
  | 66 => ⟨S800000, .i32⟩
  | 67 => ⟨S1x800000, .i32⟩
  | 68 => ⟨S800000, .i32⟩
  | 69 => ⟨S50000x128, .f32⟩
  | 70 => ⟨S_, .f32⟩
  | 71 => ⟨S800000, .f32⟩
  | 72 => ⟨S_, .f32⟩
  | 73 => ⟨S50000, .f32⟩
  | 74 => ⟨S800000x1, .i32⟩
  | 75 => ⟨S50000, .f32⟩
  | 76 => ⟨S_, .f32⟩
  | 77 => ⟨S50000, .f32⟩
  | 78 => ⟨S50000, .f32⟩
  | 79 => ⟨S50000, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000, .f32⟩
  | 98 => ⟨S800000, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x128, .f32⟩
  | 108 => ⟨S800000x1, .f32⟩
  | 109 => ⟨S800000x128, .f32⟩
  | 110 => ⟨S800000x128, .f32⟩
  | 111 => ⟨S_, .f32⟩
  | 112 => ⟨S50000x128, .f32⟩
  | 113 => ⟨S800000x1, .i32⟩
  | 114 => ⟨S50000x128, .f32⟩
  | 115 => ⟨S50000, .f32⟩
  | 116 => ⟨S50000x1, .f32⟩
  | 117 => ⟨S50000x128, .f32⟩
  | 118 => ⟨S50000x128, .f32⟩
  | 119 => ⟨S50000x128, .f32⟩
  | 120 => ⟨S1x128, .f32⟩
  | 121 => ⟨S50000x128, .f32⟩
  | 122 => ⟨S50000x128, .f32⟩
  | 123 => ⟨S_, .f32⟩
  | 124 => ⟨S50000x128, .f32⟩
  | 125 => ⟨S50000x128, .f32⟩
  | 126 => ⟨S50000x128, .f32⟩
  | 127 => ⟨S50000x128, .f32⟩
  | _ => ⟨S50000x256, .f32⟩

abbrev hbmTy0_1 (i : Nat) : BufTy := match i % 128 with
  | 0 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_8 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_10 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c_11 : Ref sig .tc := ⟨.hbm, 80, rfl⟩
abbrev main_v60 : Ref sig .tc := ⟨.hbm, 81, rfl⟩
abbrev main_v61 : Ref sig .tc := ⟨.hbm, 82, rfl⟩
abbrev main_c_12 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_c_13 : Ref sig .tc := ⟨.hbm, 89, rfl⟩
abbrev main_v67 : Ref sig .tc := ⟨.hbm, 90, rfl⟩
abbrev main_v68 : Ref sig .tc := ⟨.hbm, 91, rfl⟩
abbrev main_c_14 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_c_15 : Ref sig .tc := ⟨.hbm, 99, rfl⟩
abbrev main_v75 : Ref sig .tc := ⟨.hbm, 100, rfl⟩
abbrev main_v76 : Ref sig .tc := ⟨.hbm, 101, rfl⟩
abbrev main_c_16 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_17 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_18 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x256_S256x128_S50000x128_1_0_0_1_n_n_wf : DotDims.WF S50000x256 S256x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.CombineValue.lean ====
/-
  The second kernel region's result array as one function of the arrays it reads, over the extended reals.

  Each grid point reads a block of 1000 rows of four [50000, 128] arrays `a0 … a3`, of a fifth `e`, and two [1, 128] rows
  `b4`, `b5`, and writes the same 1000 rows of the result; entry (n, k) of what it writes depends on entry (n, k) of the
  five arrays and on column k of the two rows only:
      ((a0 + a2) + b4ₖ) + e · exp (min ((a1 + a3) + b5ₖ) 10).
  The fifty blocks tile the 50000 rows, so the result array ends holding that function at every entry.
-/
import proofs.«145006_j4269197492518_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.KernelIdeal.Combine

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Entry (n, k) of the region's result from entry (n, k) of the five full arrays and column k of the two rows. -/
def combine (a0 a1 a2 a3 : S50000x128.Idx → EReal) (b4 b5 : S1x128.Idx → EReal) (e : S50000x128.Idx → EReal) :
    S50000x128.Idx → EReal := fun i =>
  ((a0 i + a2 i) + b4 (ix2 (0 : Fin 1) (⟨(i 1).val, idx2_lt1 i⟩ : Fin 128)))
    + e i * Ideal.exp (min ((a1 i + a3 i) + b5 (ix2 (0 : Fin 1) (⟨(i 1).val, idx2_lt1 i⟩ : Fin 128))) (Ideal.ofBits .f32 0x41200000#32))

/-- The offsets of the whole-block accesses, both zero. -/
private theorem zero_offsets : (![0, 0] : Fin 2 → Nat) = fun _ => 0 := funext fun a => by fin_cases a <;> rfl

/-- The block index maps over the fifty points: the result's block at point t is block (t, 0); each of the five full arrays is read at
    the result's block; the two rows are read at their only block (0, 0). -/
private theorem index_facts : ∀ t : Fin cfg1.N,
    win1_7.index t (0 : Fin 2) = t.val ∧ win1_7.index t (1 : Fin 2) = 0
    ∧ win1_0.index t (0 : Fin 2) = win1_7.index t (0 : Fin 2) ∧ win1_0.index t (1 : Fin 2) = win1_7.index t (1 : Fin 2)
    ∧ win1_1.index t (0 : Fin 2) = win1_7.index t (0 : Fin 2) ∧ win1_1.index t (1 : Fin 2) = win1_7.index t (1 : Fin 2)
    ∧ win1_2.index t (0 : Fin 2) = win1_7.index t (0 : Fin 2) ∧ win1_2.index t (1 : Fin 2) = win1_7.index t (1 : Fin 2)
    ∧ win1_3.index t (0 : Fin 2) = win1_7.index t (0 : Fin 2) ∧ win1_3.index t (1 : Fin 2) = win1_7.index t (1 : Fin 2)
    ∧ win1_6.index t (0 : Fin 2) = win1_7.index t (0 : Fin 2) ∧ win1_6.index t (1 : Fin 2) = win1_7.index t (1 : Fin 2)
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- The exponential of a vector, at an entry. -/
private theorem exp_at {s : Shape} {φ : FTy} (a : FVec Ideal s φ) (i : s.Idx) : exp a i = Ideal.exp (a i) := rfl

/-- What the body computes at entry j of its block, from the seven blocks it loads: the two rows enter through column j₁ only. -/
private theorem payload_apply (x0 x2 : Vec Ideal S1000x128 .f32) (x4 : Vec Ideal S1x128 .f32) (x1 x3 : Vec Ideal S1000x128 .f32)
    (x5 : Vec Ideal S1x128 .f32) (x6 : Vec Ideal S1000x128 .f32) (j : S1000x128.Idx) :
    k1_pay1 x0 x2 x4 x1 x3 x5 x6 j
      = ((x0 j + x2 j) + x4 (ix2 (0 : Fin 1) (j 1)))
        + x6 j * Ideal.exp (min ((x1 j + x3 j) + x5 (ix2 (0 : Fin 1) (j 1))) (Ideal.ofBits .f32 0x41200000#32)) := by
  obtain ⟨p, q, rfl⟩ : ∃ (p : Fin 1000) (q : Fin 128), j = ix2 p q := ⟨j 0, j 1, eq_ix2 j⟩
  unfold k1_pay1
  simp only [shapeCast_self]
  simp only [addf_apply, mulf_apply, minimumf_apply, exp_at, broadcast_apply, broadcastTo_1b_ab_apply]
  rfl

/-- Reading the five full arrays at one entry i and the two rows at column i₁ and combining as the body does is `combine` at i. -/
private theorem entry_of_reads (a0 a1 a2 a3 e : S50000x128.Idx → EReal) (b4 b5 : S1x128.Idx → EReal)
    (i0 i1 i2 i3 i6 i : S50000x128.Idx) (k4 k5 : S1x128.Idx)
    (h0 : i0 = i) (h1 : i1 = i) (h2 : i2 = i) (h3 : i3 = i) (h6 : i6 = i)
    (h4 : k4 = ix2 (0 : Fin 1) (⟨(i 1).val, idx2_lt1 i⟩ : Fin 128))
    (h5 : k5 = ix2 (0 : Fin 1) (⟨(i 1).val, idx2_lt1 i⟩ : Fin 128)) :
    ((a0 i0 + a2 i2) + b4 k4) + e i6 * Ideal.exp (min ((a1 i1 + a3 i3) + b5 k5) (Ideal.ofBits .f32 0x41200000#32))
      = combine a0 a1 a2 a3 b4 b5 e i := by
  subst h0 h1 h2 h3 h6 h4 h5; rfl

/-- What point t writes back is rows 1000·t … 1000·t + 999 of `combine` of the arrays the region finds. -/
private theorem flushed_block (c : Dev nD) (t : Fin cfg1.N) :
    (dat1 (F := Ideal) V c).flushed 7 t
      = ((cfg1.win 7).blk t).view.read (Elt Ideal)
          (combine (V c main_v43) (V c main_v44) (V c main_v48) (V c main_v50) (V c main_v51) (V c main_v52) (V c main_arg6)) := by
  show (cfg1.win 7).cut (grid1.coords t) ((dat1 V c).after 7 t) = _
  rw [after1_7]
  unfold out1_7
  rw [View.canon_unit_zero zero_offsets]
  simp only [View.ld_unit_zero (S := S1000x128) zero_offsets, View.ld_unit_zero (S := S1x128) zero_offsets]
  obtain ⟨e70, e71, e00, e01, e10, e11, e20, e21, e30, e31, e60, e61, e40, e41, e50, e51⟩ := index_facts t
  funext j
  show k1_pay1 (iblk1 V c 0 t) (iblk1 V c 2 t) (iblk1 V c 4 t) (iblk1 V c 1 t) (iblk1 V c 3 t) (iblk1 V c 5 t) (iblk1 V c 6 t) j
      = combine (V c main_v43) (V c main_v44) (V c main_v48) (V c main_v50) (V c main_v51) (V c main_v52) (V c main_arg6) (((cfg1.win 7).blk t).view.emb j)
  rw [payload_apply]
  have h0 : ((cfg1.win 0).blk t).view.emb j = ((cfg1.win 7).blk t).view.emb j := by
    funext a; apply Fin.ext
    match a with
    | ⟨0, _⟩ => show win1_0.index t (0 : Fin 2) * 1000 + 1 * (j 0).val = win1_7.index t (0 : Fin 2) * 1000 + 1 * (j 0).val; omega
    | ⟨1, _⟩ => show win1_0.index t (1 : Fin 2) * 128 + 1 * (j 1).val = win1_7.index t (1 : Fin 2) * 128 + 1 * (j 1).val; omega
  have h1 : ((cfg1.win 1).blk t).view.emb j = ((cfg1.win 7).blk t).view.emb j := by
    funext a; apply Fin.ext
    match a with
    | ⟨0, _⟩ => show win1_1.index t (0 : Fin 2) * 1000 + 1 * (j 0).val = win1_7.index t (0 : Fin 2) * 1000 + 1 * (j 0).val; omega
    | ⟨1, _⟩ => show win1_1.index t (1 : Fin 2) * 128 + 1 * (j 1).val = win1_7.index t (1 : Fin 2) * 128 + 1 * (j 1).val; omega
  have h2 : ((cfg1.win 2).blk t).view.emb j = ((cfg1.win 7).blk t).view.emb j := by
    funext a; apply Fin.ext
    match a with
    | ⟨0, _⟩ => show win1_2.index t (0 : Fin 2) * 1000 + 1 * (j 0).val = win1_7.index t (0 : Fin 2) * 1000 + 1 * (j 0).val; omega
    | ⟨1, _⟩ => show win1_2.index t (1 : Fin 2) * 128 + 1 * (j 1).val = win1_7.index t (1 : Fin 2) * 128 + 1 * (j 1).val; omega
  have h3 : ((cfg1.win 3).blk t).view.emb j = ((cfg1.win 7).blk t).view.emb j := by
    funext a; apply Fin.ext
    match a with
    | ⟨0, _⟩ => show win1_3.index t (0 : Fin 2) * 1000 + 1 * (j 0).val = win1_7.index t (0 : Fin 2) * 1000 + 1 * (j 0).val; omega
    | ⟨1, _⟩ => show win1_3.index t (1 : Fin 2) * 128 + 1 * (j 1).val = win1_7.index t (1 : Fin 2) * 128 + 1 * (j 1).val; omega
  have h6 : ((cfg1.win 6).blk t).view.emb j = ((cfg1.win 7).blk t).view.emb j := by
    funext a; apply Fin.ext
    match a with
    | ⟨0, _⟩ => show win1_6.index t (0 : Fin 2) * 1000 + 1 * (j 0).val = win1_7.index t (0 : Fin 2) * 1000 + 1 * (j 0).val; omega
    | ⟨1, _⟩ => show win1_6.index t (1 : Fin 2) * 128 + 1 * (j 1).val = win1_7.index t (1 : Fin 2) * 128 + 1 * (j 1).val; omega
  have h4 : ((cfg1.win 4).blk t).view.emb (ix2 (0 : Fin 1) (j 1))
      = ix2 (0 : Fin 1) (⟨((((cfg1.win 7).blk t).view.emb j) 1).val, idx2_lt1 _⟩ : Fin 128) := by
    funext a; apply Fin.ext
    match a with
    | ⟨0, _⟩ => show win1_4.index t (0 : Fin 2) * 1 + 1 * 0 = 0; omega
    | ⟨1, _⟩ => show win1_4.index t (1 : Fin 2) * 128 + 1 * (j 1).val = win1_7.index t (1 : Fin 2) * 128 + 1 * (j 1).val; omega
  have h5 : ((cfg1.win 5).blk t).view.emb (ix2 (0 : Fin 1) (j 1))
      = ix2 (0 : Fin 1) (⟨((((cfg1.win 7).blk t).view.emb j) 1).val, idx2_lt1 _⟩ : Fin 128) := by
    funext a; apply Fin.ext
    match a with
    | ⟨0, _⟩ => show win1_5.index t (0 : Fin 2) * 1 + 1 * 0 = 0; omega
    | ⟨1, _⟩ => show win1_5.index t (1 : Fin 2) * 128 + 1 * (j 1).val = win1_7.index t (1 : Fin 2) * 128 + 1 * (j 1).val; omega
  exact entry_of_reads (V c main_v43) (V c main_v44) (V c main_v48) (V c main_v50) (V c main_arg6) (V c main_v51) (V c main_v52)
    _ _ _ _ _ _ _ _ h0 h1 h2 h3 h6 h4 h5

/-- An entry of the result array is in point t's block iff each coordinate is in the block's range on its axis. -/
private theorem mem_block (t : Fin cfg1.N) (i : S50000x128.Idx) :
    i ∈ ((cfg1.win 7).blk t).view.set
      ↔ ∀ a : Fin 2, win1_7.index t a * S1000x128.size a ≤ (i a).val ∧ (i a).val < win1_7.index t a * S1000x128.size a + S1000x128.size a := by
  show i ∈ ((View.whole main_v53).slice (win1_7.rect t)).set ↔ _
  rw [View.set_slice_whole, Rect.mem_set_unit]
  exact Iff.rfl

/-- Row r of the result array is in the block of point r / 1000: the fifty blocks of 1000 rows tile the 50000 rows. -/
private theorem rows_covered (i : S50000x128.Idx) :
    ∃ t : Fin cfg1.N, (cfg1.win 7).flush t = true ∧ i ∈ ((cfg1.win 7).blk t).view.set := by
  have hi0 : (i 0).val < 50000 := idx2_lt0 i
  have hi1 : (i 1).val < 128 := idx2_lt1 i
  have hN : cfg1.N = 50 := N_1
  let t : Fin cfg1.N := ⟨(i 0).val / 1000, by rw [hN]; omega⟩
  obtain ⟨e70, e71, -⟩ := index_facts t
  have e70' : win1_7.index t (0 : Fin 2) = (i 0).val / 1000 := e70
  refine ⟨t, flush1_7 t, ?_⟩
  rw [mem_block]
  intro a
  match a with
  | ⟨0, _⟩ => show win1_7.index t (0 : Fin 2) * 1000 ≤ (i 0).val ∧ (i 0).val < win1_7.index t (0 : Fin 2) * 1000 + 1000; omega
  | ⟨1, _⟩ => show win1_7.index t (1 : Fin 2) * 128 ≤ (i 1).val ∧ (i 1).val < win1_7.index t (1 : Fin 2) * 128 + 128; omega

/-- The result array of the second region after its fifty points, whatever the region finds in its input arrays. -/
theorem final1 (c : Dev nD) :
    (dat1 (F := Ideal) V c).arrAt 7 cfg1.N
      = combine (V c main_v43) (V c main_v44) (V c main_v48) (V c main_v50) (V c main_v51) (V c main_v52) (V c main_arg6) :=
  (dat1 V c).arrAt_eq_of_cover 7 _ (fun t _ => flushed_block V c t) rows_covered

end Cert.KernelIdeal.Combine

end
-- ==== Proof.LibPlainMatmul.lean ====
/-
  A plain matrix product read at one entry, over the extended reals.

  For the dimension numbers of an `M×K` by `K×N` product (`DotDims.plain M K N`: the left operand contracted on its
  second axis, the right on its first, no batch axis) the product accumulated into the zero splat has, at row `r` and
  column `c`, the entry `∑ k, lhs (r, k) * rhs (k, c)`: the contraction index, a one-axis multi-index, is re-indexed
  by its one coordinate `k : Fin K`, and the operand indices the dimension numbers compute are `(r, k)` and `(k, c)`.
  Stated for every `M`, `K`, `N`, with the indices built by `ix2`.
-/
import Idealize.ShloMosaic.Lib.ValueIdx
import Idealize.ShloMosaic.PureOps.Ideal.Laws

noncomputable section

namespace Cert.Lib.PlainMatmul

open Idealize.ShloMosaic Idealize.ShloMosaic.ValueIdx

variable {M K N : Nat}

/-- The left operand's row coordinate is the result's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction index's one coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction index's one coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- THE ENTRY: an `M×K` by `K×N` product into the zero accumulator, at `(r, c)`, is the sum over `k` of
    `lhs (r, k) * rhs (k, c)` — no rounding, no order, whatever the operands' formats and the precision hint. -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun a => Fin.ext (by
      match a with
      | ⟨0, _⟩ => exact (rhs_row _ _).trans hk
      | ⟨1, _⟩ => exact rhs_col _ _)
  rw [el, er]

end Cert.Lib.PlainMatmul

end
-- ==== Proof.ProductValue.lean ====
/-
  The first kernel region's result array as one function of the arrays it reads, over the extended reals.

  Each grid point reads a block of 1000 rows of `x : [50000, 256]` and the whole of `w : [256, 256]`, and writes the
  same 1000 rows of the result: the matrix product of the block with `w` into a zero accumulator (the change of
  format on the way in is the identity over the extended reals). Entry (n, j) of what it writes is
  `∑ k, x (n, k) * w (k, j)`, a function of row n of `x` alone, and the fifty blocks tile the 50000 rows: the result
  array ends holding the whole product `x · w`.
-/
import proofs.«145006_j4269197492518_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws
import proofs.«145006_j4269197492518_1_alg».proof.Proof.LibPlainMatmul

set_option maxRecDepth 16384

noncomputable section

namespace Cert.KernelIdeal.Product

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The product `x · w` entry by entry. -/
def prodRows (x : S50000x256.Idx → EReal) (w : S256x256.Idx → EReal) : S50000x256.Idx → EReal := fun i =>
  ∑ k : Fin 256, x (ix2 (⟨(i 0).val, idx2_lt0 i⟩ : Fin 50000) k) * w (ix2 k (⟨(i 1).val, idx2_lt1 i⟩ : Fin 256))

/-- The zero offset of a whole-buffer access, as a constant function. -/
private theorem hz : (![0, 0] : Fin 2 → Nat) = fun _ => 0 :=
  funext fun a => match a with | ⟨0, _⟩ => rfl | ⟨1, _⟩ => rfl

/-- The product's dimension numbers are those of a plain 1000×256 by 256×256 product: the left operand contracted
    on its second axis, the right on its first, no batch axis. -/
private theorem dot_eq : dot_S1000x256_S256x256_S1000x256_1_0_0_1_n_n = DotDims.plain 1000 256 256 := rfl

/-- What a point computes, at row p and column q of its block: the changes of format and the reshape to the same
    shape are the identity over the extended reals, and the product into the zero accumulator is the plain sum
    over the contracted axis. -/
private theorem pay_apply (x0 : Vec Ideal S1000x256 .f32) (x1 : Vec Ideal S256x256 .f32) (p : Fin 1000) (q : Fin 256) :
    k0_pay1 x0 x1 (ix2 p q) = ∑ k : Fin 256, x0 (ix2 p k) * x1 (ix2 k q) := by
  unfold k0_pay1
  rw [dot_eq]
  refine (Cert.Lib.PlainMatmul.matmul_zero_apply none _ _ p q).trans (Finset.sum_congr rfl fun k _ => ?_)
  rw [truncf_apply, truncf_apply, shapeCast_self]

/-- The block indices over the fifty points: the block of x and the block of the result are both block (t, 0),
    the block of w is block (0, 0) at every point. -/
private theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the block of x at point t is entry (n, k) of x, where n is the array row under row p of the
    result's block at t: both blocks start at row 1000 · t and at column 0. -/
private theorem blk_x (c : Dev nD) (t : Fin cfg0.N) (p : Fin 1000) (q k : Fin 256) :
    iblk0 V c 0 t (ix2 p k)
      = V c main_arg0 (ix2 (⟨((((cfg0.win 2).blk t).view.emb (ix2 p q)) 0).val, idx2_lt0 _⟩ : Fin 50000) k) := by
  obtain ⟨e0, e1, e2, e3, e4, e5⟩ := idx_facts t
  show V c main_arg0 (((cfg0.win 0).blk t).view.emb (ix2 p k)) = V c main_arg0 _
  congr 1
  funext a
  apply Fin.ext
  match a with
  | ⟨0, _⟩ => show win0_0.index t (0 : Fin 2) * 1000 + 1 * p.val = win0_2.index t (0 : Fin 2) * 1000 + 1 * p.val; omega
  | ⟨1, _⟩ => show win0_0.index t (1 : Fin 2) * 256 + 1 * k.val = k.val; omega

/-- Entry (k, q) of the block of w at point t is entry (k, j) of w, where j is the array column under column q of
    the result's block at t: the block of w is the whole of w, and the result's block starts at column 0. -/
private theorem blk_w (c : Dev nD) (t : Fin cfg0.N) (p : Fin 1000) (q k : Fin 256) :
    iblk0 V c 1 t (ix2 k q)
      = V c main_v4 (ix2 k (⟨((((cfg0.win 2).blk t).view.emb (ix2 p q)) 1).val, idx2_lt1 _⟩ : Fin 256)) := by
  obtain ⟨e0, e1, e2, e3, e4, e5⟩ := idx_facts t
  show V c main_v4 (((cfg0.win 1).blk t).view.emb (ix2 k q)) = V c main_v4 _
  congr 1
  funext a
  apply Fin.ext
  match a with
  | ⟨0, _⟩ => show win0_1.index t (0 : Fin 2) * 256 + 1 * k.val = k.val; omega
  | ⟨1, _⟩ => show win0_1.index t (1 : Fin 2) * 256 + 1 * q.val = win0_2.index t (1 : Fin 2) * 256 + 1 * q.val; omega

/-- What point t writes back is block t of the product: the one store fills the whole buffer with the product of
    the two loaded blocks, and each entry of it is the sum over k of the array entries under the blocks' entries. -/
private theorem flushed_eq (c : Dev nD) (t : Fin cfg0.N) :
    (dat0 (F := Ideal) V c).flushed 2 t
      = ((cfg0.win 2).blk t).view.read (Elt Ideal) (prodRows (V c main_arg0) (V c main_v4)) := by
  show (cfg0.win 2).cut (grid0.coords t) ((dat0 V c).after 2 t) = _
  rw [after0_2]
  unfold out0_2
  rw [View.canon_unit_zero hz]
  simp only [View.ld_unit_zero (S := S1000x256) hz, View.ld_unit_zero (S := S256x256) hz]
  funext j
  obtain ⟨p, q, rfl⟩ : ∃ (p : Fin 1000) (q : Fin 256), j = ix2 p q := ⟨j 0, j 1, eq_ix2 j⟩
  show k0_pay1 (iblk0 V c 0 t) (iblk0 V c 1 t) (ix2 p q)
    = prodRows (V c main_arg0) (V c main_v4) (((cfg0.win 2).blk t).view.emb (ix2 p q))
  rw [pay_apply]
  unfold prodRows
  exact Finset.sum_congr rfl fun k _ => by rw [blk_x V c t p q k, blk_w V c t p q k]

/-- An index of the result array is in point t's block iff each coordinate is in the block's range on its axis. -/
private theorem mem_blk (t : Fin cfg0.N) (i : S50000x256.Idx) :
    i ∈ ((cfg0.win 2).blk t).view.set ↔ ∀ a : Fin 2, win0_2.index t a * S1000x256.size a ≤ (i a).val
      ∧ (i a).val < win0_2.index t a * S1000x256.size a + S1000x256.size a := by
  show i ∈ ((View.whole main_v5).slice (win0_2.rect t)).set ↔ _
  rw [View.set_slice_whole, Rect.mem_set_unit]
  exact Iff.rfl

/-- The fifty blocks tile the 50000 rows: row n is in the block of the point n / 1000, which writes back. -/
private theorem cover (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 50 := N_0
  have ht : (i 0).val / 1000 < cfg0.N := by rw [hN]; omega
  obtain ⟨e0, e1, e2, e3, e4, e5⟩ := idx_facts ⟨(i 0).val / 1000, ht⟩
  refine ⟨⟨(i 0).val / 1000, ht⟩, flush0_2 _, ?_⟩
  rw [mem_blk]
  intro a
  match a with
  | ⟨0, _⟩ =>
    show win0_2.index ⟨(i 0).val / 1000, ht⟩ (0 : Fin 2) * 1000 ≤ (i 0).val
      ∧ (i 0).val < win0_2.index ⟨(i 0).val / 1000, ht⟩ (0 : Fin 2) * 1000 + 1000
    rw [e4]; show (i 0).val / 1000 * 1000 ≤ (i 0).val ∧ (i 0).val < (i 0).val / 1000 * 1000 + 1000; omega
  | ⟨1, _⟩ =>
    show win0_2.index ⟨(i 0).val / 1000, ht⟩ (1 : Fin 2) * 256 ≤ (i 1).val
      ∧ (i 1).val < win0_2.index ⟨(i 0).val / 1000, ht⟩ (1 : Fin 2) * 256 + 256
    rw [e5]; omega

/-- The result array of the first region after its fifty points, whatever the region finds in its input arrays. -/
theorem final0 (c : Dev nD) :
    (dat0 (F := Ideal) V c).arrAt 2 cfg0.N = prodRows (V c main_arg0) (V c main_v4) :=
  (dat0 V c).arrAt_eq_of_cover 2 (prodRows (V c main_arg0) (V c main_v4)) (fun t _ => flushed_eq V c t) cover

end Cert.KernelIdeal.Product

end
-- ==== Proof.KernelTerm.lean ====
/-
  The kernel program's result as ONE term of its seven argument arrays, over the extended reals.

  The program multiplies `x` by the two weight matrices laid side by side (one product `H = x · [W_mu | W_logstd]`, 256
  columns), computes from the edge list the inverse square roots `dinv` of the node degrees (in-edges counted, plus one)
  and the edge coefficients `dinv[src] · dinv[dst]`, gathers the rows `H[src]`, scales each by its edge's coefficient and
  adds them up at the rows `dst` (256 columns at once), and then combines, entry by entry, the left and right halves of
  that sum with the halves of `H` scaled by `dinv²`, the two bias rows and `eps`. The names below follow that order.
-/
import proofs.«145006_j4269197492518_1_alg».proof.Proof.CombineValue
import proofs.«145006_j4269197492518_1_alg».proof.Proof.ProductValue

noncomputable section

namespace Cert.KernelIdeal.Term

open Cert.KernelIdeal Cert.KernelIdeal.Gen Idealize.ShloMosaic Idealize.ShloMosaic.TcCoe Idealize.SL.Sem
open Cert.KernelIdeal.Combine Cert.KernelIdeal.Product

/-- Row 0 of the edge list: the source node of each edge. -/
def src (x1 : (⟨S2x800000, .i32⟩ : BufTy).Contents (Elt Ideal)) : (⟨S800000, .i32⟩ : BufTy).Contents (Elt Ideal) :=
  shapeCast _ (extractStridedSlice S1x800000 ![0, 0] x1 slices_S2x800000_S1x800000_0_0) shapeCasts_S1x800000_S800000

/-- Row 1 of the edge list: the destination node of each edge. -/
def dst (x1 : (⟨S2x800000, .i32⟩ : BufTy).Contents (Elt Ideal)) : (⟨S800000, .i32⟩ : BufTy).Contents (Elt Ideal) :=
  shapeCast _ (extractStridedSlice S1x800000 ![1, 0] x1 slices_S2x800000_S1x800000_1_0) shapeCasts_S1x800000_S800000

/-- A negative node number counted from the end: `v + 50000` where `v < 0`, else `v`. -/
def wrap (v : (⟨S800000, .i32⟩ : BufTy).Contents (Elt Ideal)) : (⟨S800000, .i32⟩ : BufTy).Contents (Elt Ideal) :=
  select (cmpi .slt v (broadcastInDim S800000 ![] bcast_S_S800000 (constantI S_ 32 0#32)))
    (addi v (broadcastInDim S800000 ![] bcast_S_S800000 (constantI S_ 32 50000#32))) v

/-- A vector of node numbers as a one-column array. -/
def colOf (v : (⟨S800000, .i32⟩ : BufTy).Contents (Elt Ideal)) : (⟨S800000x1, .i32⟩ : BufTy).Contents (Elt Ideal) :=
  broadcastInDim S800000x1 ![0] bcast_S800000_S800000x1_0 v

/-- `1 / sqrt (deg + 1)` per node, `deg` the number of edges that end at the node. -/
def dinv (x1 : (⟨S2x800000, .i32⟩ : BufTy).Contents (Elt Ideal)) : (⟨S50000, .f32⟩ : BufTy).Contents (Elt Ideal) :=
  Host.rsqrt (F := Ideal) (addf (F := Ideal) (φ := .f32)
    (Host.scatterAdd (F := Ideal) scatter_S50000_S800000x1_S800000_n_0_0_1 (broadcastInDim S50000 ![] bcast_S_S50000 (constant (F := Ideal) S_ .f32 0x00000000#32))
      (colOf (dst x1)) (broadcastInDim S800000 ![] bcast_S_S800000 (constant (F := Ideal) S_ .f32 0x3F800000#32)))
    (broadcastInDim S50000 ![] bcast_S_S50000 (constant (F := Ideal) S_ .f32 0x3F800000#32)))

/-- The coefficient of each edge, `dinv[src] · dinv[dst]`, as a one-column array. -/
def coefCol (x1 : (⟨S2x800000, .i32⟩ : BufTy).Contents (Elt Ideal)) : (⟨S800000x1, .f32⟩ : BufTy).Contents (Elt Ideal) :=
  broadcastInDim S800000x1 ![0] bcast_S800000_S800000x1_0
    (mulf (F := Ideal) (φ := .f32) (Host.gather gather_S50000_S800000x1_S800000_n_0_n_n_0_1_1 (dinv x1) (colOf (wrap (src x1))))
      (Host.gather gather_S50000_S800000x1_S800000_n_0_n_n_0_1_1 (dinv x1) (colOf (wrap (dst x1)))))

/-- The neighbourhood sum of a 256-column table `H`: row `dst e` receives row `src e` of `H` times edge `e`'s coefficient. -/
def agg (x1 : (⟨S2x800000, .i32⟩ : BufTy).Contents (Elt Ideal)) (H : (⟨S50000x256, .f32⟩ : BufTy).Contents (Elt Ideal)) :
    (⟨S50000x256, .f32⟩ : BufTy).Contents (Elt Ideal) :=
  Host.scatterAdd (F := Ideal) scatter_S50000x256_S800000x1_S800000x256_1_0_0_1
    (broadcastInDim S50000x256 ![] bcast_S_S50000x256 (constant (F := Ideal) S_ .f32 0x00000000#32))
    (colOf (dst x1))
    (mulf (F := Ideal) (φ := .f32) (Host.gather gather_S50000x256_S800000x1_S800000x256_1_0_n_n_0_1_1256 H (colOf (wrap (src x1))))
      (broadcastInDim S800000x256 ![0, 1] bcast_S800000x1_S800000x256_0_1 (coefCol x1)))

/-- `dinv²` per node, laid along the 128 columns: the weight of a node's own row. -/
def selfScale (x1 : (⟨S2x800000, .i32⟩ : BufTy).Contents (Elt Ideal)) : (⟨S50000x128, .f32⟩ : BufTy).Contents (Elt Ideal) :=
  broadcastInDim S50000x128 ![0, 1] bcast_S50000x1_S50000x128_0_1
    (broadcastInDim S50000x1 ![0] bcast_S50000_S50000x1_0 (mulf (F := Ideal) (φ := .f32) (dinv x1) (dinv x1)))

/-- The two weight matrices side by side. -/
def wcat (x2 x4 : (⟨S256x128, .f32⟩ : BufTy).Contents (Elt Ideal)) : (⟨S256x256, .f32⟩ : BufTy).Contents (Elt Ideal) :=
  concatenate S256x256 1 [⟨S256x128, x2⟩, ⟨S256x128, x4⟩] concatenates_S256x128_S256x128_S256x256_d1

/-- The left 128 columns of a 256-column table. -/
def left (H : (⟨S50000x256, .f32⟩ : BufTy).Contents (Elt Ideal)) : (⟨S50000x128, .f32⟩ : BufTy).Contents (Elt Ideal) :=
  extractStridedSlice S50000x128 ![0, 0] H slices_S50000x256_S50000x128_0_0

/-- The right 128 columns of a 256-column table. -/
def right (H : (⟨S50000x256, .f32⟩ : BufTy).Contents (Elt Ideal)) : (⟨S50000x128, .f32⟩ : BufTy).Contents (Elt Ideal) :=
  extractStridedSlice S50000x128 ![0, 128] H slices_S50000x256_S50000x128_0_128

/-- THE RESULT of the kernel program as a function of its arguments. -/
def result (x0 : (⟨S50000x256, .f32⟩ : BufTy).Contents (Elt Ideal)) (x1 : (⟨S2x800000, .i32⟩ : BufTy).Contents (Elt Ideal))
    (x2 : (⟨S256x128, .f32⟩ : BufTy).Contents (Elt Ideal)) (x3 : (⟨S128, .f32⟩ : BufTy).Contents (Elt Ideal))
    (x4 : (⟨S256x128, .f32⟩ : BufTy).Contents (Elt Ideal)) (x5 : (⟨S128, .f32⟩ : BufTy).Contents (Elt Ideal))
    (x6 : (⟨S50000x128, .f32⟩ : BufTy).Contents (Elt Ideal)) : (⟨S50000x128, .f32⟩ : BufTy).Contents (Elt Ideal) :=
  combine (left (agg x1 (prodRows x0 (wcat x2 x4)))) (right (agg x1 (prodRows x0 (wcat x2 x4))))
    (mulf (F := Ideal) (φ := .f32) (left (prodRows x0 (wcat x2 x4))) (selfScale x1)) (mulf (F := Ideal) (φ := .f32) (right (prodRows x0 (wcat x2 x4))) (selfScale x1))
    (shapeCast S1x128 x3 shapeCasts_S128_S1x128) (shapeCast S1x128 x5 shapeCasts_S128_S1x128) x6

end Cert.KernelIdeal.Term

end
-- ==== Proof.KernelValue.lean ====
/-
  What the kernel program's result buffer holds after the run, as the one term `Term.result` of the argument arrays.

  The buffer contents at the four segment boundaries are folds of the host operations over the launch memory, with each
  region's arrays replaced by what its grid points wrote back. Read from the end: the result array is the second
  region's (`Combine.final1`) of seven arrays as the host operations before it leave them; those are slices, products
  and the scatter of a gather of the first region's result array, which is the whole matrix product
  (`Product.final0`) of `x` with the two weight matrices side by side; everything else is computed from the edge list.
-/
import proofs.«145006_j4269197492518_1_alg».proof.Proof.KernelRun
import proofs.«145006_j4269197492518_1_alg».proof.Proof.KernelTerm
import Idealize.ShloMosaic.Lib.StableHlo.Run

set_option maxRecDepth 16384

noncomputable section

namespace Cert.KernelIdeal.Final

open Cert.KernelIdeal Cert.KernelIdeal.Gen Idealize.ShloMosaic Idealize.ShloMosaic.TcCoe Idealize.SL.Sem Idealize.ShloMosaic.StableHlo
open Cert.KernelIdeal.Combine Cert.KernelIdeal.Product Cert.KernelIdeal.Term

variable (m : (ℓ : Loc nD τ sig) → Buf (Elt Ideal) ℓ) (ρ : Dev nD → PrngReg)

/-! ## Before the first region: the edge list's two rows and the two weight matrices side by side -/

theorem W1_src (c : Dev nD) : W1 m ρ c (Proc.devRef .tc main_v1) = src (m ((c.tc : Thread nD τ).loc main_arg1)) := by
  dsimp only [W1, hostOps0]; after_results; rfl
theorem W1_dst (c : Dev nD) : W1 m ρ c (Proc.devRef .tc main_v3) = dst (m ((c.tc : Thread nD τ).loc main_arg1)) := by
  dsimp only [W1, hostOps0]; after_results; rfl
theorem W1_wcat (c : Dev nD) : W1 m ρ c (Proc.devRef .tc main_v4)
    = wcat (m ((c.tc : Thread nD τ).loc main_arg2)) (m ((c.tc : Thread nD τ).loc main_arg4)) := by
  dsimp only [W1, hostOps0]; after_results; rfl
theorem W1_x (c : Dev nD) : W1 m ρ c (Proc.devRef .tc main_arg0) = m ((c.tc : Thread nD τ).loc main_arg0) := by
  dsimp only [W1, hostOps0]; after_results
theorem W1_bmu (c : Dev nD) : W1 m ρ c (Proc.devRef .tc main_arg3) = m ((c.tc : Thread nD τ).loc main_arg3) := by
  dsimp only [W1, hostOps0]; after_results
theorem W1_bls (c : Dev nD) : W1 m ρ c (Proc.devRef .tc main_arg5) = m ((c.tc : Thread nD τ).loc main_arg5) := by
  dsimp only [W1, hostOps0]; after_results
theorem W1_eps (c : Dev nD) : W1 m ρ c (Proc.devRef .tc main_arg6) = m ((c.tc : Thread nD τ).loc main_arg6) := by
  dsimp only [W1, hostOps0]; after_results

/-! ## After the first region: its result array is the product; the other buffers are as before -/

theorem W2_prod (c : Dev nD) : W2 m ρ c (Proc.devRef .tc main_v5)
    = prodRows (m ((c.tc : Thread nD τ).loc main_arg0)) (wcat (m ((c.tc : Thread nD τ).loc main_arg2)) (m ((c.tc : Thread nD τ).loc main_arg4))) := by
  refine (W2_arr m ρ c 2).trans ((final0 (V1 m ρ) c).trans ?_)
  show prodRows (W1 m ρ c (Proc.devRef .tc main_arg0)) (W1 m ρ c (Proc.devRef .tc main_v4)) = _
  rw [W1_x, W1_wcat]
theorem W2_src (c : Dev nD) : W2 m ρ c (Proc.devRef .tc main_v1) = src (m ((c.tc : Thread nD τ).loc main_arg1)) :=
  (W2_of_ne m ρ c main_v1 (by decide)).trans (W1_src m ρ c)
theorem W2_dst (c : Dev nD) : W2 m ρ c (Proc.devRef .tc main_v3) = dst (m ((c.tc : Thread nD τ).loc main_arg1)) :=
  (W2_of_ne m ρ c main_v3 (by decide)).trans (W1_dst m ρ c)
theorem W2_bmu (c : Dev nD) : W2 m ρ c (Proc.devRef .tc main_arg3) = m ((c.tc : Thread nD τ).loc main_arg3) :=
  (W2_of_ne m ρ c main_arg3 (by decide)).trans (W1_bmu m ρ c)
theorem W2_bls (c : Dev nD) : W2 m ρ c (Proc.devRef .tc main_arg5) = m ((c.tc : Thread nD τ).loc main_arg5) :=
  (W2_of_ne m ρ c main_arg5 (by decide)).trans (W1_bls m ρ c)
theorem W2_eps (c : Dev nD) : W2 m ρ c (Proc.devRef .tc main_arg6) = m ((c.tc : Thread nD τ).loc main_arg6) :=
  (W2_of_ne m ρ c main_arg6 (by decide)).trans (W1_eps m ρ c)

/-! ## Before the second region: the seven arrays it reads -/

theorem W3_aggL (c : Dev nD) : W3 m ρ c (Proc.devRef .tc main_v43)
    = left (agg (m ((c.tc : Thread nD τ).loc main_arg1)) (prodRows (m ((c.tc : Thread nD τ).loc main_arg0)) (wcat (m ((c.tc : Thread nD τ).loc main_arg2)) (m ((c.tc : Thread nD τ).loc main_arg4))))) := by
  dsimp only [W3, hostOps1]; after_results_simp
  rw [W2_prod, W2_src, W2_dst]; rfl
theorem W3_aggR (c : Dev nD) : W3 m ρ c (Proc.devRef .tc main_v44)
    = right (agg (m ((c.tc : Thread nD τ).loc main_arg1)) (prodRows (m ((c.tc : Thread nD τ).loc main_arg0)) (wcat (m ((c.tc : Thread nD τ).loc main_arg2)) (m ((c.tc : Thread nD τ).loc main_arg4))))) := by
  dsimp only [W3, hostOps1]; after_results_simp
  rw [W2_prod, W2_src, W2_dst]; rfl
theorem W3_selfL (c : Dev nD) : W3 m ρ c (Proc.devRef .tc main_v48)
    = mulf (F := Ideal) (φ := .f32) (left (prodRows (m ((c.tc : Thread nD τ).loc main_arg0)) (wcat (m ((c.tc : Thread nD τ).loc main_arg2)) (m ((c.tc : Thread nD τ).loc main_arg4))))) (selfScale (m ((c.tc : Thread nD τ).loc main_arg1))) := by
  dsimp only [W3, hostOps1]; after_results_simp
  rw [W2_prod, W2_dst]; rfl
theorem W3_selfR (c : Dev nD) : W3 m ρ c (Proc.devRef .tc main_v50)
    = mulf (F := Ideal) (φ := .f32) (right (prodRows (m ((c.tc : Thread nD τ).loc main_arg0)) (wcat (m ((c.tc : Thread nD τ).loc main_arg2)) (m ((c.tc : Thread nD τ).loc main_arg4))))) (selfScale (m ((c.tc : Thread nD τ).loc main_arg1))) := by
  dsimp only [W3, hostOps1]; after_results_simp
  rw [W2_prod, W2_dst]; rfl
theorem W3_bmu (c : Dev nD) : W3 m ρ c (Proc.devRef .tc main_v51) = shapeCast S1x128 (m ((c.tc : Thread nD τ).loc main_arg3)) shapeCasts_S128_S1x128 := by
  dsimp only [W3, hostOps1]; after_results_simp
  rw [W2_bmu]; rfl
theorem W3_bls (c : Dev nD) : W3 m ρ c (Proc.devRef .tc main_v52) = shapeCast S1x128 (m ((c.tc : Thread nD τ).loc main_arg5)) shapeCasts_S128_S1x128 := by
  dsimp only [W3, hostOps1]; after_results_simp
  rw [W2_bls]; rfl
theorem W3_eps (c : Dev nD) : W3 m ρ c (Proc.devRef .tc main_arg6) = m ((c.tc : Thread nD τ).loc main_arg6) := by
  dsimp only [W3, hostOps1]; after_results_simp
  exact W2_eps m ρ c

/-! ## After the second region: the result -/

/-- The result buffer at the last boundary is `Term.result` of the arguments. -/
theorem W4_result (c : Dev nD) : W4 m ρ c (Proc.devRef .tc main_v53)
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := by
  refine (W4_arr m ρ c 7).trans ((final1 (V3 m ρ) c).trans ?_)
  show combine (W3 m ρ c (Proc.devRef .tc main_v43)) (W3 m ρ c (Proc.devRef .tc main_v44)) (W3 m ρ c (Proc.devRef .tc main_v48))
    (W3 m ρ c (Proc.devRef .tc main_v50)) (W3 m ρ c (Proc.devRef .tc main_v51)) (W3 m ρ c (Proc.devRef .tc main_v52))
    (W3 m ρ c (Proc.devRef .tc main_arg6)) = _
  rw [W3_aggL, W3_aggR, W3_selfL, W3_selfR, W3_bmu, W3_bls, W3_eps]
  rfl

/-- THE RUN, READ: every weakly fair execution terminates, nothing faulting, the result array at `Term.result` of the
    arguments and the arguments unchanged. -/
theorem run : θ_run defs (onTc (τ := τ) (main (F := Ideal))) ⟨m, fun _ => 0, ρ⟩ (fun r => ∀ c : Dev nD,
      r.2.mem ((c.tc : Thread nD τ).loc main_v53)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (W4_result m ρ c), (h c).2⟩) (Cert.KernelIdeal.RunNamed.run_named m ρ)

end Cert.KernelIdeal.Final

end
-- ==== Proof.LibRowOps.lean ====
/-
  Row gathers and row scatters read at one entry, and what a column slice does to them.

  A table `H : [N, D]` gathered at a column `J : [E, 1]` of row numbers gives the `[E, D]` array whose row `e` is row
  `J e` of `H`, the number read signed and clamped into `[0, N - 1]`. Updates `U : [E, D]` scattered with addition at a
  column `I : [E, 1]` of row numbers give, at row `n` and column `k`, the operand's entry plus the sum of `U e k` over the
  `e` whose number `I e`, read signed, is exactly `n` (an update whose number is outside `[0, N)` lands nowhere).
  Both read one column at a time, so a block of columns `[o, o + D')` of the scatter of a gather scaled by a
  per-row factor is the same scatter of the same gather of that block of columns.
-/
import Idealize.ShloMosaic.Lib.ValueIdx
import Idealize.ShloMosaic.PureOps.Ideal.Laws

noncomputable section

namespace Cert.Lib.RowOps

open Idealize.ShloMosaic Idealize.ShloMosaic.ValueIdx

variable {N E D D' w : Nat}

/-- Row `e` of an `[E, 1]` column. -/
abbrev col (e : Fin E) : (⟨2, ![E, 1]⟩ : Shape).Idx := ix2 e (0 : Fin 1)

/-- The rows an index column sends to row `n`: those whose number, read signed, is `n`. -/
abbrev landing (idx : IVec ⟨2, ![E, 1]⟩ w) (n : Fin N) : Finset (Fin E) :=
  Finset.univ.filter fun e : Fin E => (idx (col e)).toInt = (n.val : ℤ)

/-- The row a gather reads for position `e`: the number read signed, clamped into the table. -/
abbrev clampRow (hN : 0 < N) (idx : IVec ⟨2, ![E, 1]⟩ w) (e : Fin E) : Fin N :=
  ⟨min (idx (col e)).toInt.toNat (N - 1), by omega⟩

section scatter
variable (d : ScatterDims ⟨2, ![N, D]⟩ ⟨2, ![E, 1]⟩ ⟨2, ![E, D]⟩)
    (huw : d.updateWindowDims = [1]) (hiw : d.insertedWindowDims = [0]) (hsd : d.scatterDimsToOperandDims = [0])
    (hiv : d.indexVectorDim = 1) (idx : IVec ⟨2, ![E, 1]⟩ w) (e : Fin E) (k' : Fin D)
include huw hiw hsd hiv

/-- On the row axis the window starts at the row number read signed; the index column is read at row `e`. -/
private theorem start_row : d.start (ix2 e k') idx (0 : Fin 2) = (idx (col e)).toInt := by
  have hm : (0 : Fin 2) ∈ d.scatterDimsToOperandDims := by rw [hsd]; exact List.mem_singleton.mpr rfl
  have e0 : ∀ X : Fin 2, X = 0 → ((ix2 e k' : (⟨2, ![E, D]⟩ : Shape).Idx) X).val = e.val := fun X hX => by subst hX; rfl
  -- the updates' one scatter axis is axis 0
  have hsc : ∀ y ∈ d.uScatter, y = 0 := by
    intro y hy
    have hne : y ∉ d.updateWindowDims := by
      simpa [ScatterDims.uScatter, Shape.kept, List.mem_filter, List.mem_finRange] using hy
    rw [huw, List.mem_singleton] at hne
    have hlt : y.val < 2 := y.isLt
    have hv : y.val ≠ 1 := fun h => hne (Fin.ext h)
    apply Fin.ext
    show y.val = 0
    omega
  unfold ScatterDims.start
  rw [dif_pos hm]
  congr 2
  funext b
  match b with
  | ⟨0, hb0⟩ =>
    unfold ScatterDims.siIdx
    rw [dif_neg (by rw [hiv]; simp)]
    unfold ScatterDims.siCoord
    apply Fin.ext
    simp only [Fin.val_cast]
    exact e0 _ (hsc _ (List.getElem_mem _))
  | ⟨1, hb1⟩ =>
    unfold ScatterDims.siIdx
    rw [dif_pos (by rw [hiv])]
    apply Fin.ext
    show List.idxOf (0 : Fin 2) d.scatterDimsToOperandDims = 0
    rw [hsd]; simp

/-- On the column axis the window starts at 0: the map does not name it. -/
private theorem start_col : d.start (ix2 e k') idx (1 : Fin 2) = 0 := by
  have hm : (1 : Fin 2) ∉ d.scatterDimsToOperandDims := by rw [hsd]; simp
  unfold ScatterDims.start
  rw [dif_neg hm]

/-- The row axis is inserted: its window coordinate is 0. -/
private theorem window_row : d.window (ix2 e k') (0 : Fin 2) = 0 := by
  have hk : (0 : Fin 2) ∉ d.sKept := by
    simp [ScatterDims.sKept, Shape.kept, List.mem_filter, List.mem_finRange, hiw]
  unfold ScatterDims.window
  rw [dif_neg hk]

/-- The column axis carries the update's column. -/
private theorem window_col : d.window (ix2 e k') (1 : Fin 2) = k'.val := by
  have hk : (1 : Fin 2) ∈ d.sKept := by
    simp [ScatterDims.sKept, Shape.kept, List.mem_filter, List.mem_finRange, hiw]
  have e1 : ∀ X : Fin 2, X = 1 → ((ix2 e k' : (⟨2, ![E, D]⟩ : Shape).Idx) X).val = k'.val := fun X hX => by subst hX; rfl
  have hwin : ∀ y ∈ d.updateWindowDims, y = 1 := by intro y hy; rw [huw] at hy; exact List.mem_singleton.mp hy
  unfold ScatterDims.window
  rw [dif_pos hk]
  exact e1 _ (hwin _ (List.getElem_mem _))

end scatter

section scatter2
variable (d : ScatterDims ⟨2, ![N, D]⟩ ⟨2, ![E, 1]⟩ ⟨2, ![E, D]⟩)
    (huw : d.updateWindowDims = [1]) (hiw : d.insertedWindowDims = [0]) (hsd : d.scatterDimsToOperandDims = [0])
    (hiv : d.indexVectorDim = 1) (idx : IVec ⟨2, ![E, 1]⟩ w)
include huw hiw hsd hiv

/-- WHERE AN UPDATE LANDS: update `(e, k')` lands at `(n, k)` exactly when row number `e`, read signed, is `n` and the
    columns agree (a row number outside `[0, N)` lands nowhere). -/
private theorem lands_iff (e : Fin E) (k' : Fin D) (n : Fin N) (k : Fin D) :
    d.resultIdx? (ix2 e k') idx = some (ix2 n k) ↔ (idx (col e)).toInt = (n.val : ℤ) ∧ k' = k := by
  have hs0 := start_row d huw hiw hsd hiv idx e k'
  have hs1 := start_col d huw hiw hsd hiv idx e k'
  have hw0 := window_row d huw hiw hsd hiv e k'
  have hw1 := window_col d huw hiw hsd hiv e k'
  have hn : n.val < N := n.isLt
  have hk : k.val < D := k.isLt
  have hk' : k'.val < D := k'.isLt
  unfold ScatterDims.resultIdx?
  constructor
  · intro h
    split at h
    · rename_i hin
      have hf := Option.some.inj h
      have h0 := congrArg Fin.val (congrFun hf (0 : Fin 2))
      have h1 := congrArg Fin.val (congrFun hf (1 : Fin 2))
      have hin0 := hin (0 : Fin 2)
      simp only [hs0, hw0] at h0 hin0
      simp only [hs1, hw1] at h1
      have h0' : ((idx (col e)).toInt + ((0 : ℕ) : ℤ)).toNat = n.val := h0
      have h1' : ((0 : ℤ) + (k'.val : ℤ)).toNat = k.val := h1
      refine ⟨by omega, Fin.ext (by omega)⟩
    · exact absurd h (by simp)
  · rintro ⟨he, rfl⟩
    have hin : ∀ a : Fin 2, 0 ≤ d.start (ix2 e k') idx a + d.window (ix2 e k') a ∧
        d.start (ix2 e k') idx a + d.window (ix2 e k') a < (⟨2, ![N, D]⟩ : Shape).size a := by
      intro a
      match a with
      | ⟨0, h0⟩ =>
        show 0 ≤ d.start (ix2 e k') idx (0 : Fin 2) + d.window (ix2 e k') (0 : Fin 2) ∧
          d.start (ix2 e k') idx (0 : Fin 2) + d.window (ix2 e k') (0 : Fin 2) < (N : ℤ)
        rw [hs0, hw0, he]; omega
      | ⟨1, h1⟩ =>
        show 0 ≤ d.start (ix2 e k') idx (1 : Fin 2) + d.window (ix2 e k') (1 : Fin 2) ∧
          d.start (ix2 e k') idx (1 : Fin 2) + d.window (ix2 e k') (1 : Fin 2) < (D : ℤ)
        rw [hs1, hw1]; omega
    rw [dif_pos hin]
    congr 1
    funext a
    apply Fin.ext
    match a with
    | ⟨0, h0⟩ =>
      show (d.start (ix2 e k') idx (0 : Fin 2) + d.window (ix2 e k') (0 : Fin 2)).toNat = n.val
      rw [hs0, hw0, he]; omega
    | ⟨1, h1⟩ =>
      show (d.start (ix2 e k') idx (1 : Fin 2) + d.window (ix2 e k') (1 : Fin 2)).toNat = k'.val
      rw [hs1, hw1]; omega

end scatter2

/-- THE ROW SCATTER at an entry. -/
theorem scatterAdd_row (d : ScatterDims ⟨2, ![N, D]⟩ ⟨2, ![E, 1]⟩ ⟨2, ![E, D]⟩)
    (huw : d.updateWindowDims = [1]) (hiw : d.insertedWindowDims = [0]) (hsd : d.scatterDimsToOperandDims = [0])
    (hiv : d.indexVectorDim = 1)
    (x : FVec Ideal ⟨2, ![N, D]⟩ .f32) (idx : IVec ⟨2, ![E, 1]⟩ w) (upd : FVec Ideal ⟨2, ![E, D]⟩ .f32) (n : Fin N) (k : Fin D) :
    Host.scatterAdd d x idx upd (ix2 n k) = x (ix2 n k) + ∑ e ∈ landing idx n, upd (ix2 e k) := by
  show Ideal.hostScatterAdd d x idx upd (ix2 n k) = _
  unfold Ideal.hostScatterAdd
  congr 1
  rw [Finset.sum_filter, ValueIdx.sum_idx2, Finset.sum_filter]
  refine Finset.sum_congr rfl fun e _ => ?_
  by_cases he : (idx (col e)).toInt = (n.val : ℤ)
  · -- row `e` lands on row `n`: of its updates exactly the one in column `k` lands at `(n, k)`
    rw [if_pos he, Finset.sum_eq_single k]
    · rw [if_pos ((lands_iff d huw hiw hsd hiv idx e k n k).2 ⟨he, rfl⟩)]
    · intro k' _ hk'
      rw [if_neg fun h => hk' ((lands_iff d huw hiw hsd hiv idx e k' n k).1 h).2]
    · intro h; exact absurd (Finset.mem_univ _) h
  · -- row `e` lands elsewhere, or nowhere
    rw [if_neg he]
    refine Finset.sum_eq_zero fun k' _ => ?_
    rw [if_neg fun h => he ((lands_iff d huw hiw hsd hiv idx e k' n k).1 h).1]

/-- THE ROW GATHER at an entry. -/
theorem gather_row {α : Type} (g : GatherDims ⟨2, ![N, D]⟩ ⟨2, ![E, 1]⟩ ⟨2, ![E, D]⟩)
    (hod : g.offsetDims = [1]) (hcs : g.collapsedSliceDims = [0]) (hob : g.operandBatchingDims = [])
    (hsm : g.startIndexMap = [0]) (hiv : g.indexVectorDim = 1) (hN : 0 < N)
    (x : (⟨2, ![N, D]⟩ : Shape).Idx → α) (idx : IVec ⟨2, ![E, 1]⟩ w) (e : Fin E) (k : Fin D) :
    Host.gather g x idx (ix2 e k) = x (ix2 (clampRow hN idx e) k) := by
  unfold Host.gather
  congr 1
  funext a
  apply Fin.ext
  have hb : ∀ a, a ∉ g.operandBatchingDims := by intro a; rw [hob]; exact List.not_mem_nil
  simp only [GatherDims.operandIdx, GatherDims.batchCoord_eq_zero _ _ _ (hb _), Nat.add_zero]
  -- a coordinate of the result index, read at an axis known only by a membership fact
  have e0 : ∀ X : Fin 2, X = 0 → ((ix2 e k : (⟨2, ![E, D]⟩ : Shape).Idx) X).val = e.val := fun X hX => by subst hX; rfl
  have e1 : ∀ X : Fin 2, X = 1 → ((ix2 e k : (⟨2, ![E, D]⟩ : Shape).Idx) X).val = k.val := fun X hX => by subst hX; rfl
  -- the one offset axis of the result is axis 1, its one batch axis is axis 0
  have hoff : ∀ y ∈ g.offsetDims, y = 1 := by intro y hy; rw [hod] at hy; exact List.mem_singleton.mp hy
  have hbat : ∀ y ∈ g.batchDims, y = 0 := by
    intro y hy
    have hne : y ∉ g.offsetDims := by
      simpa [GatherDims.batchDims, Shape.kept, List.mem_filter, List.mem_finRange] using hy
    rw [hod, List.mem_singleton] at hne
    have hlt : y.val < 2 := y.isLt
    have hv : y.val ≠ 1 := fun h => hne (Fin.ext h)
    apply Fin.ext
    show y.val = 0
    omega
  match a with
  | ⟨0, h0⟩ =>
    have hk : (⟨0, h0⟩ : Fin 2) ∉ g.sKept := by rw [GatherDims.mem_sKept, hcs]; simp
    have hm : (⟨0, h0⟩ : Fin 2) ∈ g.startIndexMap := by rw [hsm]; exact List.mem_singleton.mpr rfl
    have hsl : g.sliceSizes ⟨0, h0⟩ = 1 := g.slice_collapsed _ (by rw [hcs]; exact List.mem_singleton.mpr rfl)
    rw [GatherDims.offCoord_eq_zero _ _ _ hk, Nat.add_zero]
    unfold GatherDims.start
    rw [dif_pos hm]
    show min (idx _).toInt.toNat (N - g.sliceSizes ⟨0, h0⟩) = min (idx (col e)).toInt.toNat (N - 1)
    rw [hsl]
    congr 3
    congr 1
    funext b
    match b with
    | ⟨0, hb0⟩ =>
      unfold GatherDims.siIdx
      rw [dif_neg (by rw [hiv]; simp)]
      unfold GatherDims.siCoord
      apply Fin.ext
      simp only [Fin.val_cast]
      exact e0 _ (hbat _ (List.getElem_mem _))
    | ⟨1, hb1⟩ =>
      unfold GatherDims.siIdx
      rw [dif_pos (by rw [hiv])]
      apply Fin.ext
      show List.idxOf (⟨0, h0⟩ : Fin 2) g.startIndexMap = 0
      rw [hsm]; simp
  | ⟨1, h1⟩ =>
    have hk : (⟨1, h1⟩ : Fin 2) ∈ g.sKept := by rw [GatherDims.mem_sKept, hcs, hob]; simp
    have hm : (⟨1, h1⟩ : Fin 2) ∉ g.startIndexMap := by rw [hsm]; simp
    unfold GatherDims.start GatherDims.offCoord
    rw [dif_neg hm, dif_pos hk, Nat.zero_add]
    exact e1 _ (hoff _ (List.getElem_mem _))

/-- A BLOCK OF COLUMNS of the scatter of a scaled gather is the scatter of the scaled gather of that block of columns. -/
theorem agg_cols (o : Nat) (ho : o + D' ≤ D) (hN : 0 < N)
    (d : ScatterDims ⟨2, ![N, D]⟩ ⟨2, ![E, 1]⟩ ⟨2, ![E, D]⟩)
    (huw : d.updateWindowDims = [1]) (hiw : d.insertedWindowDims = [0]) (hsd : d.scatterDimsToOperandDims = [0])
    (hiv : d.indexVectorDim = 1)
    (d' : ScatterDims ⟨2, ![N, D']⟩ ⟨2, ![E, 1]⟩ ⟨2, ![E, D']⟩)
    (huw' : d'.updateWindowDims = [1]) (hiw' : d'.insertedWindowDims = [0]) (hsd' : d'.scatterDimsToOperandDims = [0])
    (hiv' : d'.indexVectorDim = 1)
    (g : GatherDims ⟨2, ![N, D]⟩ ⟨2, ![E, 1]⟩ ⟨2, ![E, D]⟩)
    (hod : g.offsetDims = [1]) (hcs : g.collapsedSliceDims = [0]) (hob : g.operandBatchingDims = [])
    (hsm : g.startIndexMap = [0]) (hgv : g.indexVectorDim = 1)
    (g' : GatherDims ⟨2, ![N, D']⟩ ⟨2, ![E, 1]⟩ ⟨2, ![E, D']⟩)
    (hod' : g'.offsetDims = [1]) (hcs' : g'.collapsedSliceDims = [0]) (hob' : g'.operandBatchingDims = [])
    (hsm' : g'.startIndexMap = [0]) (hgv' : g'.indexVectorDim = 1)
    (Z : FVec Ideal ⟨2, ![N, D]⟩ .f32) (Z' : FVec Ideal ⟨2, ![N, D']⟩ .f32)
    (hZ : ∀ (n : Fin N) (k : Fin D'), Z' (ix2 n k) = Z (ix2 n ⟨o + k.val, by omega⟩))
    (H : FVec Ideal ⟨2, ![N, D]⟩ .f32) (H' : FVec Ideal ⟨2, ![N, D']⟩ .f32)
    (hH : ∀ (n : Fin N) (k : Fin D'), H' (ix2 n k) = H (ix2 n ⟨o + k.val, by omega⟩))
    (B : FVec Ideal ⟨2, ![E, D]⟩ .f32) (B' : FVec Ideal ⟨2, ![E, D']⟩ .f32)
    (hB : ∀ (e : Fin E) (k : Fin D'), B' (ix2 e k) = B (ix2 e ⟨o + k.val, by omega⟩))
    (I J : IVec ⟨2, ![E, 1]⟩ w) (n : Fin N) (k : Fin D') :
    Host.scatterAdd d' Z' I (mulf (Host.gather g' H' J) B') (ix2 n k)
      = Host.scatterAdd d Z I (mulf (Host.gather g H J) B) (ix2 n ⟨o + k.val, by omega⟩) := by
  rw [scatterAdd_row d' huw' hiw' hsd' hiv', scatterAdd_row d huw hiw hsd hiv, hZ]
  refine congrArg _ (Finset.sum_congr rfl fun e _ => ?_)
  rw [mulf_apply, mulf_apply, gather_row g' hod' hcs' hob' hsm' hgv' hN, gather_row g hod hcs hob hsm hgv hN, hH, hB]

end Cert.Lib.RowOps

end
-- ==== Proof.Bridge.lean ====
/-
  The kernel program's term and the reference program's term are one function of the seven arguments.

  The reference computes, twice over (once per weight matrix), `x · W`, the neighbourhood sum of its rows and the
  self-loop term `dinv² · (x · W)`, then adds the bias and combines. The kernel computes both products as one
  256-column product with the two weight matrices side by side, takes ONE neighbourhood sum of its rows, and cuts the
  two 128-column halves out afterwards. Entry by entry the two agree because
    * column `k` (resp. `128 + k`) of `x · [W_mu | W_logstd]` is column `k` of `x · W_mu` (resp. `x · W_logstd`):
      the same sum over the 256 inner indices, the right factor read in the left (resp. right) half;
    * a gather of rows, a scaling of each row by its edge's coefficient and a scatter-add of rows all act on each
      column by itself, so a block of columns of the result is the result of that block of columns;
    * the integer edge arrays, the degrees' inverse square roots and the edge coefficients are the same operations of
      the edge list in both programs.
  No law of the extended reals beyond these re-indexings is used: the sums have the same terms over the same index sets.
-/
import proofs.«145006_j4269197492518_1_alg».proof.Proof.KernelTerm
import proofs.«145006_j4269197492518_1_alg».proof.Proof.LibRowOps
import proofs.«145006_j4269197492518_1_alg».proof.Proof.Gen.ReferenceIdeal.Read
import Idealize.ShloMosaic.Lib.Pipeline.Value
import Idealize.ShloMosaic.Lib.ValueIdx

noncomputable section

namespace Cert.Bridge

open Idealize.ShloMosaic Idealize.ShloMosaic.TcCoe Idealize.SL.Sem Idealize.ShloMosaic.ValueIdx
open Cert.KernelIdeal.Term Cert.KernelIdeal.Combine Cert.KernelIdeal.Product Cert.Lib.RowOps
open Cert.ReferenceIdeal (S50000x256 S2x800000 S256x128 S128 S50000x128)
open Cert.ReferenceIdeal.Read

variable (x0 : (⟨S50000x256, .f32⟩ : BufTy).Contents (Elt Ideal)) (x1 : (⟨S2x800000, .i32⟩ : BufTy).Contents (Elt Ideal))
  (x2 : (⟨S256x128, .f32⟩ : BufTy).Contents (Elt Ideal)) (x3 : (⟨S128, .f32⟩ : BufTy).Contents (Elt Ideal))
  (x4 : (⟨S256x128, .f32⟩ : BufTy).Contents (Elt Ideal)) (x5 : (⟨S128, .f32⟩ : BufTy).Contents (Elt Ideal))
  (x6 : (⟨S50000x128, .f32⟩ : BufTy).Contents (Elt Ideal))

/-! ## The edge list's arrays are the same operations in both programs -/

theorem dstCol_eq : val_main_v38 (F := Ideal) x1 = colOf (dst x1) := rfl
theorem dstCol_eq' : val_main_v86 (F := Ideal) x1 = colOf (dst x1) := rfl
theorem srcCol_eq : val_main_v32 (F := Ideal) x1 = colOf (wrap (src x1)) := rfl
theorem srcCol_eq' : val_main_v80 (F := Ideal) x1 = colOf (wrap (src x1)) := rfl
theorem coefCol_eq : val_main_v34 (F := Ideal) x1 = coefCol x1 := rfl
theorem coefCol_eq' : val_main_v82 (F := Ideal) x1 = coefCol x1 := rfl
theorem selfScale_eq : val_main_v42 (F := Ideal) x1 = selfScale x1 := rfl
theorem selfScale_eq' : val_main_v90 (F := Ideal) x1 = selfScale x1 := rfl

/-! ## The wide product's two halves -/

/-- Column `k` of `x · [W_mu | W_logstd]` is column `k` of `x · W_mu`. -/
theorem prod_left (n : Fin 50000) (k : Fin 128) :
    val_main_v4 (F := Ideal) x0 x2 (ix2 n k) = prodRows x0 (wcat x2 x4) (ix2 n (⟨0 + k.val, by omega⟩ : Fin 256)) := by
  rw [val_main_v4_apply]
  show _ = ∑ j : Fin 256, x0 (ix2 n j) * wcat x2 x4 (ix2 j (⟨0 + k.val, by omega⟩ : Fin 256))
  refine Finset.sum_congr rfl fun j _ => ?_
  have e0 : lidx_main_v4 (ix2 n k) j = ix2 n j := funext fun a => by
    match a with
    | ⟨0, _⟩ => rfl
    | ⟨1, _⟩ => rfl
  have e1 : wcat x2 x4 (ix2 j (⟨0 + k.val, by omega⟩ : Fin 256)) = x2 (ridx_main_v4 (ix2 n k) j) := by
    unfold wcat
    exact concatenate_pair_apply_left (1 : Fin 2) x2 x4 _ (ix2 j (⟨0 + k.val, by omega⟩ : Fin 256)) rfl (ridx_main_v4 (ix2 n k) j) (fun b => by
      match b with
      | ⟨0, _⟩ => rfl
      | ⟨1, _⟩ => show k.val = 0 + k.val; omega)
  rw [e0, e1]

/-- Column `128 + k` of `x · [W_mu | W_logstd]` is column `k` of `x · W_logstd`. -/
theorem prod_right (n : Fin 50000) (k : Fin 128) :
    val_main_v52 (F := Ideal) x0 x4 (ix2 n k) = prodRows x0 (wcat x2 x4) (ix2 n (⟨128 + k.val, by omega⟩ : Fin 256)) := by
  rw [val_main_v52_apply]
  show _ = ∑ j : Fin 256, x0 (ix2 n j) * wcat x2 x4 (ix2 j (⟨128 + k.val, by omega⟩ : Fin 256))
  refine Finset.sum_congr rfl fun j _ => ?_
  have e0 : lidx_main_v52 (ix2 n k) j = ix2 n j := funext fun a => by
    match a with
    | ⟨0, _⟩ => rfl
    | ⟨1, _⟩ => rfl
  have e1 : wcat x2 x4 (ix2 j (⟨128 + k.val, by omega⟩ : Fin 256)) = x4 (ridx_main_v52 (ix2 n k) j) := by
    unfold wcat
    exact concatenate_pair_apply_right (1 : Fin 2) x2 x4 _ (ix2 j (⟨128 + k.val, by omega⟩ : Fin 256)) rfl rfl (ridx_main_v52 (ix2 n k) j) (fun b hb => by
      match b with
      | ⟨0, _⟩ => rfl
      | ⟨1, _⟩ => exact absurd rfl hb) (by show k.val + 128 = 128 + k.val; omega)
  rw [e0, e1]

/-! ## The zero array and the coefficient array read in a block of columns; the bias rows -/

/-- The zero operand of the wide scatter, read in any block of 128 columns, is the zero operand of the narrow one. -/
theorem zero_cols (o : Nat) (ho : o + 128 ≤ 256)
    (hK : Cert.KernelIdeal.S_.BroadcastsInDim Cert.KernelIdeal.S50000x256 (![] : Fin 0 → Fin 2)) (n : Fin 50000) (k : Fin 128) :
    val_main_v37 (F := Ideal) (ix2 n k)
      = broadcastInDim Cert.KernelIdeal.S50000x256 ![] hK (constant (F := Ideal) Cert.KernelIdeal.S_ .f32 0x00000000#32)
          (ix2 n (⟨o + k.val, by omega⟩ : Fin 256)) := by
  rw [val_main_v37_apply]
  exact (broadcastInDim_apply _ hK _ _ (idx_main_v37 (ix2 n k)) (fun a => a.elim0)).symm

/-- An edge's coefficient laid along 256 columns, read in any block of 128 columns, is the coefficient laid along 128. -/
theorem coef_cols (o : Nat) (ho : o + 128 ≤ 256)
    (hK : Cert.KernelIdeal.S800000x1.BroadcastsInDim Cert.KernelIdeal.S800000x256 (![0, 1] : Fin 2 → Fin 2)) (e : Fin 800000) (k : Fin 128) :
    val_main_v35 (F := Ideal) x1 (ix2 e k)
      = broadcastInDim Cert.KernelIdeal.S800000x256 ![0, 1] hK (coefCol x1) (ix2 e (⟨o + k.val, by omega⟩ : Fin 256)) := by
  rw [val_main_v35_apply, coefCol_eq]
  exact (broadcastInDim_apply _ hK (coefCol x1) _ (idx_main_v35 (ix2 e k)) (fun a => by
    match a with
    | ⟨0, _⟩ => show e.val = if (800000 : Nat) = 1 then 0 else e.val; rw [if_neg (by decide)]
    | ⟨1, _⟩ => show 0 = if (1 : Nat) = 1 then 0 else _; rw [if_pos rfl])).symm

theorem coef_cols' (o : Nat) (ho : o + 128 ≤ 256)
    (hK : Cert.KernelIdeal.S800000x1.BroadcastsInDim Cert.KernelIdeal.S800000x256 (![0, 1] : Fin 2 → Fin 2)) (e : Fin 800000) (k : Fin 128) :
    val_main_v83 (F := Ideal) x1 (ix2 e k)
      = broadcastInDim Cert.KernelIdeal.S800000x256 ![0, 1] hK (coefCol x1) (ix2 e (⟨o + k.val, by omega⟩ : Fin 256)) := by
  rw [val_main_v83_apply, coefCol_eq']
  exact (broadcastInDim_apply _ hK (coefCol x1) _ (idx_main_v83 (ix2 e k)) (fun a => by
    match a with
    | ⟨0, _⟩ => show e.val = if (800000 : Nat) = 1 then 0 else e.val; rw [if_neg (by decide)]
    | ⟨1, _⟩ => show 0 = if (1 : Nat) = 1 then 0 else _; rw [if_pos rfl])).symm

/-- The bias as a [1, 128] row read at column `k` is the bias laid along the 50000 rows read at `(n, k)`. -/
theorem bias_mu (h : Cert.KernelIdeal.S128.ShapeCasts Cert.KernelIdeal.S1x128) (n : Fin 50000) (k kk : Fin 128) (hk : kk.val = k.val) :
    shapeCast Cert.KernelIdeal.S1x128 x3 h (ix2 (0 : Fin 1) kk) = val_main_v46 (F := Ideal) x3 (ix2 n k) := by
  obtain rfl : kk = k := Fin.ext hk
  rw [val_main_v46_apply, val_main_v45_apply]
  refine (shapeCast_addUnit_apply ![128] x3 h (ix2 (0 : Fin 1) kk)).trans (congrArg x3 (funext fun a => ?_))
  match a with
  | ⟨0, _⟩ => rfl

theorem bias_ls (h : Cert.KernelIdeal.S128.ShapeCasts Cert.KernelIdeal.S1x128) (n : Fin 50000) (k kk : Fin 128) (hk : kk.val = k.val) :
    shapeCast Cert.KernelIdeal.S1x128 x5 h (ix2 (0 : Fin 1) kk) = val_main_v94 (F := Ideal) x5 (ix2 n k) := by
  obtain rfl : kk = k := Fin.ext hk
  rw [val_main_v94_apply, val_main_v93_apply]
  refine (shapeCast_addUnit_apply ![128] x5 h (ix2 (0 : Fin 1) kk)).trans (congrArg x5 (funext fun a => ?_))
  match a with
  | ⟨0, _⟩ => rfl

/-! ## The halves of the wide product and of its neighbourhood sum -/

theorem left_prod (n : Fin 50000) (k : Fin 128) :
    left (prodRows x0 (wcat x2 x4)) (ix2 n k) = val_main_v4 (F := Ideal) x0 x2 (ix2 n k) := by
  unfold left
  rw [extractStridedSlice_apply ![0, 0] _ _ (ix2 n k) (ix2 n (⟨0 + k.val, by omega⟩ : Fin 256)) (fun a => by
    match a with
    | ⟨0, _⟩ => show n.val = 0 + n.val; omega
    | ⟨1, _⟩ => rfl)]
  exact (prod_left x0 x2 x4 n k).symm

theorem right_prod (n : Fin 50000) (k : Fin 128) :
    right (prodRows x0 (wcat x2 x4)) (ix2 n k) = val_main_v52 (F := Ideal) x0 x4 (ix2 n k) := by
  unfold right
  rw [extractStridedSlice_apply ![0, 128] _ _ (ix2 n k) (ix2 n (⟨128 + k.val, by omega⟩ : Fin 256)) (fun a => by
    match a with
    | ⟨0, _⟩ => show n.val = 0 + n.val; omega
    | ⟨1, _⟩ => rfl)]
  exact (prod_right x0 x2 x4 n k).symm

/-- The left half of the neighbourhood sum of the wide product is the neighbourhood sum of `x · W_mu`. -/
theorem agg_left (n : Fin 50000) (k : Fin 128) :
    left (agg x1 (prodRows x0 (wcat x2 x4))) (ix2 n k) = val_main_v39 (F := Ideal) x0 x1 x2 (ix2 n k) := by
  unfold left
  rw [extractStridedSlice_apply ![0, 0] _ _ (ix2 n k) (ix2 n (⟨0 + k.val, by omega⟩ : Fin 256)) (fun a => by
    match a with
    | ⟨0, _⟩ => show n.val = 0 + n.val; omega
    | ⟨1, _⟩ => rfl)]
  unfold agg val_main_v39 val_main_v36 val_main_v33
  rw [dstCol_eq, srcCol_eq]
  exact (agg_cols 0 (by omega) (by omega) _ rfl rfl rfl rfl _ rfl rfl rfl rfl _ rfl rfl rfl rfl rfl _ rfl rfl rfl rfl rfl
    _ _ (zero_cols 0 (by omega) _) _ _ (prod_left x0 x2 x4) _ _ (coef_cols x1 0 (by omega) _) _ _ n k).symm

/-- The right half of the neighbourhood sum of the wide product is the neighbourhood sum of `x · W_logstd`. -/
theorem agg_right (n : Fin 50000) (k : Fin 128) :
    right (agg x1 (prodRows x0 (wcat x2 x4))) (ix2 n k) = val_main_v87 (F := Ideal) x0 x1 x4 (ix2 n k) := by
  unfold right
  rw [extractStridedSlice_apply ![0, 128] _ _ (ix2 n k) (ix2 n (⟨128 + k.val, by omega⟩ : Fin 256)) (fun a => by
    match a with
    | ⟨0, _⟩ => show n.val = 0 + n.val; omega
    | ⟨1, _⟩ => rfl)]
  unfold agg val_main_v87 val_main_v84 val_main_v81
  rw [dstCol_eq', srcCol_eq']
  exact (agg_cols 128 (by omega) (by omega) _ rfl rfl rfl rfl _ rfl rfl rfl rfl _ rfl rfl rfl rfl rfl _ rfl rfl rfl rfl rfl
    _ _ (zero_cols 128 (by omega) _) _ _ (prod_right x0 x2 x4) _ _ (coef_cols' x1 128 (by omega) _) _ _ n k).symm

/-! ## The two programs' results -/

/-- THE KERNEL'S TERM IS THE REFERENCE'S: entry `(n, k)` of both is
    `((S_mu + h_mu · dinv²) + b_mu) + eps · exp (min ((S_ls + h_ls · dinv²) + b_ls) 10)`, with `h` column `k` of row `n` of
    `x · W` and `S` its neighbourhood sum, the same numbers on both sides by the lemmas above. -/
theorem result_eq :
    result x0 x1 x2 x3 x4 x5 x6 = val_main_v100 (F := Ideal) x0 x1 x2 x3 x4 x5 x6 := by
  funext i
  obtain ⟨n, k, rfl⟩ : ∃ (n : Fin 50000) (k : Fin 128), i = ix2 n k := ⟨i 0, i 1, eq_ix2 i⟩
  unfold result combine
  dsimp only
  rw [agg_left, agg_right, mulf_apply, mulf_apply, left_prod, right_prod, bias_mu x3 _ n k _ rfl, bias_ls x5 _ n k _ rfl]
  rw [val_main_v100_apply, val_main_v47_apply, val_main_v44_apply, val_main_v43_apply, val_main_v99_apply, val_main_v98_apply,
    val_main_v97_apply, val_main_v95_apply, val_main_v92_apply, val_main_v91_apply, val_main_v96_apply, val_main_cst_18_apply,
    selfScale_eq, selfScale_eq']
  simp only [Ideal.addf_def, Ideal.mulf_def, Ideal.minimumf_def, Ideal.hostUnary_exp_def, Ideal.ofBits_def]

end Cert.Bridge

end
-- ==== Proof.lean ====
/-
  A graph-convolution encoder: `z = mu + eps · exp (min logstd 10)`, where `mu` and `logstd` are each
  `D^{-1/2} (A + I) D^{-1/2} (x W) + b` for their own weight matrix and bias, `A` the edge list's adjacency and `D` the
  degrees with self-loops. The reference computes the two convolutions one after the other. The kernel program
  multiplies `x` once by the two weight matrices side by side in a first kernel region, gathers, scales and
  scatter-adds the 256-column product on the host, cuts the halves out, and combines everything entry by entry in a
  second kernel region.

  The three frames: both kernel programs' are the generated frames; the reference's is its generated run with the
  result dropped. Nothing was rewritten by the ideal pass. The value claim: the kernel program's result array is one
  term of the arguments (Proof/KernelValue.lean: the second region's array function of the host arrays before it,
  those read back through the first region's array function, the whole product), and that term is the reference's
  (Proof/Bridge.lean: a block of columns of a row gather, a row scaling and a row scatter-add is that operation of the
  block of columns; a block of columns of a product is the product with that block of columns of the right factor).
  The precondition is not used: the two sides are the same sums of the same products over the same index sets.
-/
import proofs.«145006_j4269197492518_1_alg».proof.Defs
import proofs.«145006_j4269197492518_1_alg».proof.Proof.Gen.Kernel
import proofs.«145006_j4269197492518_1_alg».proof.Proof.Gen.Kernel.Skeleton
import proofs.«145006_j4269197492518_1_alg».proof.Proof.Gen.Kernel.Launch
import proofs.«145006_j4269197492518_1_alg».proof.Proof.Gen.Kernel.Points
import proofs.«145006_j4269197492518_1_alg».proof.Proof.Gen.Kernel.Frame
import proofs.«145006_j4269197492518_1_alg».proof.Proof.Gen.KernelIdeal
import proofs.«145006_j4269197492518_1_alg».proof.Proof.Gen.KernelIdeal.Skeleton
import proofs.«145006_j4269197492518_1_alg».proof.Proof.Gen.KernelIdeal.Launch
import proofs.«145006_j4269197492518_1_alg».proof.Proof.Gen.KernelIdeal.Points
import proofs.«145006_j4269197492518_1_alg».proof.Proof.Gen.KernelIdeal.Frame
import proofs.«145006_j4269197492518_1_alg».proof.Proof.Gen.ReferenceIdeal
import proofs.«145006_j4269197492518_1_alg».proof.Proof.Gen.Pre_finite_inputs
import proofs.«145006_j4269197492518_1_alg».proof.Proof.Gen.ReferenceIdeal.Run
import proofs.«145006_j4269197492518_1_alg».proof.Proof.Gen.ReferenceIdeal.Read
import proofs.«145006_j4269197492518_1_alg».proof.Proof.KernelValue
import proofs.«145006_j4269197492518_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the kernel program's term of the arguments: the kernel program by its
    run read back, the reference because its own term is that term of arguments that agree. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v100_eq, (hagree c).1, (hagree c).2.1, (hagree c).2.2.1, (hagree c).2.2.2.1,
    (hagree c).2.2.2.2.1, (hagree c).2.2.2.2.2.1, (hagree c).2.2.2.2.2.2]
  exact (Cert.Bridge.result_eq _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
